-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1x1x1024 : Shape := ⟨3, ![1, 1, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1x1x1024 : S_.BroadcastsInDim S1x1x1024 (![] : Fin 0 → Fin S1x1x1024.rank)
  reducesTo_S1x1x1024_S_d0_1_2 : S1x1x1024.ReducesTo [0, 1, 2] S_

variable [Facts]

def fn {F : FTy → Type} [FloatOps F] (main_arg0 : FVec F S8x4096x1024 .f32) (main_arg1 : FVec F S1x1x1024 .f32) (main_arg2 : FVec F S1x1x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1x1x1024 .f32 := Host.absf main_arg1
  let main_cst_0 : FVec F S_ .f32 := constant S_ .f32 0x7F800000#32
  let main_v5 : FVec F S1x1x1024 .f32 := broadcastInDim S1x1x1024 ![] bcast_S_S1x1x1024 main_cst_0
  let main_v6 : IVec S1x1x1024 1 := cmpf .olt main_v4 main_v5
  let main_c_1 : IVec S_ 1 := constantI S_ 1 1#1
  let main_v7 : IVec S_ 1 := (fun x v => Host.reduce IntOp.andi x v reducesTo_S1x1x1024_S_d0_1_2 h_S_) main_v6 main_c_1
  let main_v8 : IVec S_ 1 := andi main_v3 main_v7
  let main_v9 : FVec F S1x1x1024 .f32 := Host.absf main_arg2
  let main_cst_2 : FVec F S_ .f32 := constant S_ .f32 0x7F800000#32
  let main_v10 : FVec F S1x1x1024 .f32 := broadcastInDim S1x1x1024 ![] bcast_S_S1x1x1024 main_cst_2
  let main_v11 : IVec S1x1x1024 1 := cmpf .olt main_v9 main_v10
  let main_c_3 : IVec S_ 1 := constantI S_ 1 1#1
  let main_v12 : IVec S_ 1 := (fun x v => Host.reduce IntOp.andi x v reducesTo_S1x1x1024_S_d0_1_2 h_S_) main_v11 main_c_3
  let main_v13 : IVec S_ 1 := andi main_v8 main_v12
  main_v13
-- ==== Kernel.lean ====
abbrev S8x4096x1024 : Shape := ⟨3, ![8, 4096, 1024]⟩
abbrev S1x1x1024 : Shape := ⟨3, ![1, 1, 1024]⟩
abbrev S1x512x1024 : Shape := ⟨3, ![1, 512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1x1x1024, .f32⟩
  | .hbm, ⟨2, _⟩ => ⟨S1x1x1024, .f32⟩
  | .hbm, ⟨3, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x1024, .f32⟩
  | .local _ .vmem, ⟨5, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  broadcasts_S1x1x1024_S1x512x1024 : S1x1x1024.Broadcasts S1x512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S1x1x1024.size a
  hwx0_1 : ∀ i : grid0.Coords, EltTy.bits .f32 = 32 ∨ (Rect.block (s := S1x1x1024) S1x1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S1x1x1024.size a
  hwx0_2 : ∀ i : grid0.Coords, EltTy.bits .f32 = 32 ∨ (Rect.block (s := S1x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x4096x1024.size a
  hwx0_3 : ∀ i : grid0.Coords, EltTy.bits .f32 = 32 ∨ (Rect.block (s := S8x4096x1024) S1x512x1024.size (cc0_transform_3 i) (hinb0_3 i)).WholeWords (EltTy.packing .f32)

variable [Facts₀]

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1x1x1024 : Shape := ⟨3, ![1, 1, 1024]⟩
abbrev S8x4096x256x4 : Shape := ⟨4, ![8, 4096, 256, 4]⟩
abbrev S_ : Shape := ⟨0, ![]⟩
abbrev S4 : Shape := ⟨1, ![4]⟩
abbrev S1x1x1x4 : Shape := ⟨4, ![1, 1, 1, 4]⟩
abbrev S8x4096x256 : Shape := ⟨3, ![8, 4096, 256]⟩
abbrev S8x4096x256x1 : Shape := ⟨4, ![8, 4096, 256, 1]⟩
abbrev S1x1x256x4 : Shape := ⟨4, ![1, 1, 256, 4]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1x1024, .f32⟩
  | .hbm, ⟨2, _⟩ => ⟨S1x1x1024, .f32⟩
  | .hbm, ⟨3, _⟩ => ⟨S8x4096x256x4, .f32⟩
  | .hbm, ⟨4, _⟩ => ⟨S_, .f32⟩
  | .hbm, ⟨5, _⟩ => ⟨S8x4096x256x4, .f32⟩
  | .hbm, ⟨6, _⟩ => ⟨S8x4096x256x4, .i1⟩
  | .hbm, ⟨7, _⟩ => ⟨S8x4096x256x4, .i32⟩
  | .hbm, ⟨8, _⟩ => ⟨S4, .i32⟩
  | .hbm, ⟨9, _⟩ => ⟨S1x1x1x4, .i32⟩
  | .hbm, ⟨10, _⟩ => ⟨S8x4096x256x4, .i32⟩
  | .hbm, ⟨11, _⟩ => ⟨S8x4096x256x4, .i32⟩
  | .hbm, ⟨12, _⟩ => ⟨S_, .i32⟩
  | .hbm, ⟨13, _⟩ => ⟨S8x4096x256, .i32⟩
  | .hbm, ⟨14, _⟩ => ⟨S8x4096x256x1, .i32⟩
  | .hbm, ⟨15, _⟩ => ⟨S1x1x1x4, .i32⟩
  | .hbm, ⟨16, _⟩ => ⟨S8x4096x256x4, .i32⟩
  | .hbm, ⟨17, _⟩ => ⟨S8x4096x256x4, .i32⟩
  | .hbm, ⟨18, _⟩ => ⟨S8x4096x256x4, .i32⟩
  | .hbm, ⟨19, _⟩ => ⟨S_, .i32⟩
  | .hbm, ⟨20, _⟩ => ⟨S8x4096x256x4, .i32⟩
  | .hbm, ⟨21, _⟩ => ⟨S8x4096x256x4, .i32⟩
  | .hbm, ⟨22, _⟩ => ⟨S_, .i32⟩
  | .hbm, ⟨23, _⟩ => ⟨S8x4096x256x4, .i32⟩
  | .hbm, ⟨24, _⟩ => ⟨S8x4096x256x4, .i1⟩
  | .hbm, ⟨25, _⟩ => ⟨S8x4096x256x4, .i1⟩
  | .hbm, ⟨26, _⟩ => ⟨S1x1x256x4, .f32⟩
  | .hbm, ⟨27, _⟩ => ⟨S1x1x256x4, .f32⟩
  | .hbm, ⟨28, _⟩ => ⟨S8x4096x256x4, .f32⟩
  | .hbm, ⟨29, _⟩ => ⟨S8x4096x256x4, .f32⟩
  | .hbm, ⟨30, _⟩ => ⟨S8x4096x256x4, .f32⟩
  | .hbm, ⟨31, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  shapeCasts_S8x4096x1024_S8x4096x256x4 : S8x4096x1024.ShapeCasts S8x4096x256x4
  bcast_S_S8x4096x256x4 : S_.BroadcastsInDim S8x4096x256x4 (![] : Fin 0 → Fin S8x4096x256x4.rank)
  natLt_1_32 : 1 < 32
  bcast_S4_S1x1x1x4_3 : S4.BroadcastsInDim S1x1x1x4 (![3] : Fin 1 → Fin S1x1x1x4.rank)
  bcast_S1x1x1x4_S8x4096x256x4_0_1_2_3 : S1x1x1x4.BroadcastsInDim S8x4096x256x4 (![0, 1, 2, 3] : Fin 4 → Fin S8x4096x256x4.rank)
  reducesTo_S8x4096x256x4_S8x4096x256_d3 : S8x4096x256x4.ReducesTo [3] S8x4096x256
  h_S_ : 0 < S_.numel
  bcast_S8x4096x256_S8x4096x256x1_0_1_2 : S8x4096x256.BroadcastsInDim S8x4096x256x1 (![0, 1, 2] : Fin 3 → Fin S8x4096x256x1.rank)
  bcast_S8x4096x256x1_S8x4096x256x4_0_1_2_3 : S8x4096x256x1.BroadcastsInDim S8x4096x256x4 (![0, 1, 2, 3] : Fin 4 → Fin S8x4096x256x4.rank)
  shapeCasts_S1x1x1024_S1x1x256x4 : S1x1x1024.ShapeCasts S1x1x256x4
  bcast_S1x1x256x4_S8x4096x256x4_0_1_2_3 : S1x1x256x4.BroadcastsInDim S8x4096x256x4 (![0, 1, 2, 3] : Fin 4 → Fin S8x4096x256x4.rank)
  shapeCasts_S8x4096x256x4_S8x4096x1024 : S8x4096x256x4.ShapeCasts S8x4096x1024

variable [Facts₀]

class Facts : Prop extends Facts₀ where

variable [Facts]
-- ==== Proof.Spec.lean ====
/-
  The function both programs compute, index by index.

  For an array x over (batch 8, token 4096, channel 1024) and two tables e0, e1 over the 1024 channels (shape
  [1, 1, 1024]), the result at (b, t, c) is e1[c] where x[b, t, c] > 0 (the ordered "greater than" against the
  zero word) and e0[c] elsewhere. The comparison and the choice are the same scalar operations in both programs, so the
  statement holds at any reading of the floats; no law of the extended reals is used.
-/
import Idealize.ShloMosaic.Lib.ValueIdx

namespace Cert.SignSelect

open Idealize.ShloMosaic Idealize.ShloMosaic.ValueIdx

variable {F : FTy → Type} [FloatOps F]

/-- The array's shape: batch × token × channel. -/
abbrev ShapeX : Shape := ⟨3, ![8, 4096, 1024]⟩
/-- A table's shape: one entry per channel. -/
abbrev ShapeE : Shape := ⟨3, ![1, 1, 1024]⟩

/-- The table entry an array index reads: its channel. -/
abbrev chanOf (i : ShapeX.Idx) : ShapeE.Idx :=
  ix3 (⟨0, Nat.one_pos⟩ : Fin 1) (⟨0, Nat.one_pos⟩ : Fin 1) (i 2)

/-- The sign test of one element: the one-bit answer of "x > 0", ordered. -/
abbrev posBit (v : F .f32) : BitVec 1 := FloatOps.cmpf .ogt v (FloatOps.ofBits .f32 0x00000000#32)

/-- THE RESULT: per element, the channel's entry of `e1` where the element is positive, of `e0` elsewhere. -/
def signSelect (x : FVec F ShapeX .f32) (e0 e1 : FVec F ShapeE .f32) : FVec F ShapeX .f32 :=
  fun i => Scalar.select (posBit (x i)) (e1 (chanOf i)) (e0 (chanOf i))

end Cert.SignSelect
-- ==== Proof.KernelValue.lean ====
/-
  The kernel's result array as one function of the argument arrays.

  The grid has 8 × 8 points. Point (b, tt) stages the [1, 512, 1024] block of x at block index (b, tt, 0), both tables
  whole, and writes back the block of the result at the same block index. Its body compares the x block with zero and
  chooses, element by element, the second table's entry of the element's channel where the element is positive and the
  first table's elsewhere; the tables' single row is broadcast down the 512 rows. So what a point writes back is its
  block of `signSelect x e0 e1`. The 64 blocks tile the [8, 4096, 1024] array (row r of batch b lies in the block of point
  (b, r / 512)), hence the array ends at `signSelect x e0 e1`.
-/
import proofs.«109593_j84679575208362_1_alg».proof.Proof.Gen.KernelIdeal.Value
import proofs.«109593_j84679575208362_1_alg».proof.Proof.Spec

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx Cert.SignSelect
open Idealize.ShloMosaic.Pipeline (Dat)

variable {F : FTy → Type} [FloatOps F]
variable (m : (ℓ : Loc nD τ sig) → Buf (Elt F) ℓ) (ρ : Dev nD → PrngReg)

/-- The zero offsets of a rank-3 rectangle. -/
theorem zero3 : (![0, 0, 0] : Fin 3 → Nat) = fun _ => 0 := funext fun a => by fin_cases a <;> rfl

/-- The table entry a block index reads: its channel. -/
abbrev chanIn (y : S1x512x1024.Idx) : S1x1x1024.Idx :=
  ix3 (⟨0, Nat.one_pos⟩ : Fin 1) (⟨0, Nat.one_pos⟩ : Fin 1) (y 2)

/-- WHAT THE BODY LEAVES in the output block, at a block index: the choice between the two tables' entries of the index's
    channel, by the sign test of the x block's element there. Stated over variables of the blocks' literal types. -/
theorem body_apply (x0 : Vec F S1x512x1024 .f32) (x1 x2 : Vec F S1x1x1024 .f32) (y : S1x512x1024.Idx) :
    out0_3 x0 x1 x2 y = Scalar.select (posBit (x0 y)) (x2 (chanIn y)) (x1 (chanIn y)) := by
  unfold out0_3
  refine (Value.canon3_eq (View.ld x0 r0_0) (View.ld x2 r0_1) (View.ld x1 r0_1) y).trans ?_
  simp only [View.ld_unit_zero (S := S1x512x1024) zero3, View.ld_unit_zero (S := S1x1x1024) zero3]
  have a0 : Value.ix3_0 y = y := by
    funext a; apply Fin.ext
    match a with
    | ⟨0, _⟩ => show 0 = (y 0).val; have hy0 : (y 0).val < 1 := (y 0).isLt; omega
    | ⟨1, _⟩ => rfl
    | ⟨2, _⟩ => rfl
  have a1 : Value.ix3_1 y = chanIn y := by
    funext a; apply Fin.ext
    match a with
    | ⟨0, _⟩ => rfl
    | ⟨1, _⟩ => rfl
    | ⟨2, _⟩ => rfl
  have a2 : Value.ix3_2 y = chanIn y := by
    funext a; apply Fin.ext
    match a with
    | ⟨0, _⟩ => rfl
    | ⟨1, _⟩ => rfl
    | ⟨2, _⟩ => rfl
  show Scalar.select (FloatOps.cmpf .ogt (x0 (Value.ix3_0 y)) (Scalar.ofBits .f32 0x00000000#32)) (x2 (Value.ix3_1 y)) (x1 (Value.ix3_2 y)) = _
  rw [a0, a1, a2]

/-- The printed index maps, decided over the 64 grid points: the x window moves with the output window, both tables stay
    at block zero, and the output's block indices stay in range. -/
theorem index_facts : ∀ t : Fin cfg0.N,
    win0_0.index t (0 : Fin 3) = win0_3.index t (0 : Fin 3)
    ∧ win0_0.index t (1 : Fin 3) = win0_3.index t (1 : Fin 3)
    ∧ win0_0.index t (2 : Fin 3) = 0 ∧ win0_3.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) ≤ 7 ∧ win0_3.index t (1 : Fin 3) ≤ 7 :=
  (by decide +kernel : ∀ t : Fin grid0.N, _)

/-- Every block index (b, tt, 0) of the output is some grid point's. -/
theorem index_onto : ∀ (q0 : Fin 8) (q1 : Fin 8), ∃ t : Fin cfg0.N, win0_3.index t = ![q0.val, q1.val, 0] :=
  (by decide +kernel : ∀ (q0 : Fin 8) (q1 : Fin 8), ∃ t : Fin grid0.N, win0_3.index t = ![q0.val, q1.val, 0])

/-- WHAT POINT `t` WRITES BACK is block `t` of `signSelect` of the argument arrays. -/
theorem flushed_eq (c : Dev nD) (t : Fin cfg0.N) :
    (dats m 0 c).flushed 3 t = ((cfg0.win 3).blk t).view.read (Elt F)
      (signSelect (V m c main_arg0) (V m c main_arg1) (V m c main_arg2)) := by
  rw [Value.flushed3]
  obtain ⟨e00, e01, e02, e32, e10, e11, e12, e20, e21, e22, -, -⟩ := index_facts t
  funext j
  show out0_3 (iblk m c 0 t) (iblk m c 1 t) (iblk m c 2 t) j
    = signSelect (V m c main_arg0) (V m c main_arg1) (V m c main_arg2) (((cfg0.win 3).blk t).view.emb j)
  refine (body_apply (iblk m c 0 t) (iblk m c 1 t) (iblk m c 2 t) j).trans ?_
  have hj0 : (j 0).val < 1 := (j 0).isLt
  have hj1 : (j 1).val < 512 := (j 1).isLt
  have hj2 : (j 2).val < 1024 := (j 2).isLt
  have h0 : ((cfg0.win 0).blk t).view.emb j = ((cfg0.win 3).blk t).view.emb j := by
    funext a; apply Fin.ext
    match a with
    | ⟨0, _⟩ => show win0_0.index t (0 : Fin 3) * 1 + 1 * (j 0).val = win0_3.index t (0 : Fin 3) * 1 + 1 * (j 0).val; omega
    | ⟨1, _⟩ => show win0_0.index t (1 : Fin 3) * 512 + 1 * (j 1).val = win0_3.index t (1 : Fin 3) * 512 + 1 * (j 1).val; omega
    | ⟨2, _⟩ => show win0_0.index t (2 : Fin 3) * 1024 + 1 * (j 2).val = win0_3.index t (2 : Fin 3) * 1024 + 1 * (j 2).val; omega
  have h1 : ((cfg0.win 1).blk t).view.emb (chanIn j) = chanOf (((cfg0.win 3).blk t).view.emb j) := by
    funext a; apply Fin.ext
    match a with
    | ⟨0, _⟩ => show win0_1.index t (0 : Fin 3) * 1 + 1 * 0 = 0; omega
    | ⟨1, _⟩ => show win0_1.index t (1 : Fin 3) * 1 + 1 * 0 = 0; omega
    | ⟨2, _⟩ => show win0_1.index t (2 : Fin 3) * 1024 + 1 * (j 2).val = win0_3.index t (2 : Fin 3) * 1024 + 1 * (j 2).val; omega
  have h2 : ((cfg0.win 2).blk t).view.emb (chanIn j) = chanOf (((cfg0.win 3).blk t).view.emb j) := by
    funext a; apply Fin.ext
    match a with
    | ⟨0, _⟩ => show win0_2.index t (0 : Fin 3) * 1 + 1 * 0 = 0; omega
    | ⟨1, _⟩ => show win0_2.index t (1 : Fin 3) * 1 + 1 * 0 = 0; omega
    | ⟨2, _⟩ => show win0_2.index t (2 : Fin 3) * 1024 + 1 * (j 2).val = win0_3.index t (2 : Fin 3) * 1024 + 1 * (j 2).val; omega
  show Scalar.select (posBit (V m c main_arg0 (((cfg0.win 0).blk t).view.emb j)))
      (V m c main_arg2 (((cfg0.win 2).blk t).view.emb (chanIn j))) (V m c main_arg1 (((cfg0.win 1).blk t).view.emb (chanIn j)))
    = Scalar.select (posBit (V m c main_arg0 (((cfg0.win 3).blk t).view.emb j)))
      (V m c main_arg2 (chanOf (((cfg0.win 3).blk t).view.emb j))) (V m c main_arg1 (chanOf (((cfg0.win 3).blk t).view.emb j)))
  rw [h0, h1, h2]

/-- An index of the array is in point `t`'s block iff each coordinate is in the block's range on its axis. -/
theorem mem_block (t : Fin cfg0.N) (i : S8x4096x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v0).slice (win0_3.rect t)).set ↔ _
  rw [View.set_slice_whole, Rect.mem_set_unit]
  exact Iff.rfl

/-- THE BLOCKS TILE THE ARRAY: index (b, r, ch) lies in the block of the point with block index (b, r / 512, 0). -/
theorem cover (i : S8x4096x1024.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 1024 := (i 2).isLt
  obtain ⟨t, ht⟩ := index_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- THE ARRAY after the run is `signSelect` of the argument arrays. -/
theorem final (c : Dev nD) :
    (dats m 0 c).arrAt 3 cfg0.N
      = signSelect (m ((c : Thread nD τ).loc main_arg0)) (m ((c : Thread nD τ).loc main_arg1)) (m ((c : Thread nD τ).loc main_arg2)) :=
  (dats m 0 c).arrAt_eq_of_cover 3 _ (fun t _ => flushed_eq m c t) cover

/-- The frame run re-posted: the result array at `signSelect` of the arguments, the arguments unchanged. -/
theorem run : θ_run defs (onTc (τ := τ) (main (F := F))) ⟨m, fun _ => 0, ρ⟩ fun r => ∀ c : Dev nD,
      r.2.mem ((c : Thread nD τ).loc main_v0)
        = signSelect (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KerValue

end
-- ==== Proof.BitPack.lean ====
/-
  Packing four one-bit flags into a word and reading one of them back.

  The reference packs the flags b₀ … b₃ of a group of four channels into the word
  tok = b₀·2⁰ + b₁·2¹ + b₂·2² + b₃·2³ (each flag widened to 32 bits, shifted left by its position, the four summed),
  and later reads flag k back as ((tok >>ₛ k) &&& 1) ≠ 0. Since every flag is 0 or 1 the word lies in [0, 16): the
  shifted flags occupy distinct bit positions, the sum carries nothing, and bit k of the word is b_k. Here this is
  checked on the sixteen words and four positions, each flag being 0#1 or 1#1.
-/
import Idealize.ShloMosaic.PureOps.Reduce

namespace Cert.SignSelect

open Idealize.ShloMosaic

/-- The word the four flags pack to: each widened to 32 bits and shifted left by its position, summed from zero in the
    order the fold over the four positions visits them. -/
def packWord (b : Fin 4 → BitVec 1) : BitVec 32 :=
  IntOp.addi (IntOp.shli .host ((b 0).setWidth 32) (BitVec.ofNat 32 0))
    (IntOp.addi (IntOp.shli .host ((b 1).setWidth 32) (BitVec.ofNat 32 1))
      (IntOp.addi (IntOp.shli .host ((b 2).setWidth 32) (BitVec.ofNat 32 2))
        (IntOp.addi (IntOp.shli .host ((b 3).setWidth 32) (BitVec.ofNat 32 3)) 0#32)))

/-- Flag `k` read back from a word: shift right by `k`, mask the low bit, compare with zero. -/
def readFlag (tok : BitVec 32) (k : Fin 4) : BitVec 1 :=
  IntOp.cmpi .ne (IntOp.andi (IntOp.shrsi .host tok (BitVec.ofNat 32 k.val)) 1#32) 0#32

/-- The round trip on explicit flags: bit `k` of the packed word is flag `k`. -/
theorem readFlag_pack4 (b0 b1 b2 b3 : BitVec 1) (k : Fin 4) :
    readFlag (packWord ![b0, b1, b2, b3]) k = (![b0, b1, b2, b3] : Fin 4 → BitVec 1) k := by
  rcases BitVec.eq_zero_or_eq_one b0 with rfl | rfl <;>
  rcases BitVec.eq_zero_or_eq_one b1 with rfl | rfl <;>
  rcases BitVec.eq_zero_or_eq_one b2 with rfl | rfl <;>
  rcases BitVec.eq_zero_or_eq_one b3 with rfl | rfl <;>
  fin_cases k <;> decide

/-- The round trip: reading position `k` of the word the four flags pack to gives flag `k`. -/
theorem readFlag_packWord (b : Fin 4 → BitVec 1) (k : Fin 4) : readFlag (packWord b) k = b k := by
  have e : b = ![b 0, b 1, b 2, b 3] := by
    funext a; fin_cases a <;> rfl
  rw [e]
  exact readFlag_pack4 (b 0) (b 1) (b 2) (b 3) k

/-- A fold of the word sum over the four positions, from zero, is the packed word's nested sum. -/
theorem fold_addi_fin4 (g : Fin 4 → BitVec 32) :
    (Finset.univ : Finset (Fin 4)).fold IntOp.addi 0#32 g
      = IntOp.addi (g 0) (IntOp.addi (g 1) (IntOp.addi (g 2) (IntOp.addi (g 3) 0#32))) := by
  simp only [Fin.univ_succ, Finset.fold_cons, Finset.fold_map, Finset.univ_unique, Finset.fold_singleton]
  rfl

end Cert.SignSelect
-- ==== Proof.RefValue.lean ====
/-
  The reference's result array as the same function of the argument arrays.

  The reference views x as [8, 4096, 256, 4]: groups of four neighbouring channels. In a group it takes the sign flag of
  each of the four elements, widens it to a 32-bit word, shifts it left by its position in the group and sums the four
  words (a fold over the last axis, from zero) into one token per group; it then broadcasts the token back over the four
  positions, shifts it right by the position, masks the low bit and compares with zero. By the round trip of packing
  four flags into a word (`readFlag_packWord`) that is the element's own sign flag again. The select between the two
  tables, viewed as [1, 1, 256, 4] and broadcast, then reads the entry of channel 4·group + position, and the final
  reshape to [8, 4096, 1024] puts element (b, t, group, position) at channel 4·group + position. So at (b, t, c) the result
  is `signSelect x e0 e1`.
-/
import proofs.«109593_j84679575208362_1_alg».proof.Proof.RefRead
import proofs.«109593_j84679575208362_1_alg».proof.Proof.Spec
import proofs.«109593_j84679575208362_1_alg».proof.Proof.BitPack
import Idealize.ShloMosaic.PureOps.Reduce

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx Cert.SignSelect

variable {F : FTy → Type} [FloatOps F]

/-- Dropping the position axis of the grouped view leaves the groups. -/
theorem dropPos : S8x4096x256x4.Reduces [3] S8x4096x256 := by decide

/-- The group a grouped index lies in. -/
abbrev groupOf (i' : S8x4096x256x4.Idx) : S8x4096x256.Idx := idx_main_v9 (idx_main_v11 i')

/-- The sign flag of the element at position `k` of group `j`. -/
def flag (x0 : (⟨S8x4096x1024, .f32⟩ : BufTy).Contents (Elt F)) (j : S8x4096x256.Idx) (k : Fin 4) : BitVec 1 :=
  posBit (x0 (idx_main_v0 (dropPos.lift j k)))

/-- The shifted word of position `k` in group `j`: the widened flag, shifted left by `k`. -/
theorem shifted_flag (x0 : (⟨S8x4096x1024, .f32⟩ : BufTy).Contents (Elt F)) (j : S8x4096x256.Idx) (k : Fin 4) :
    val_main_v7 (F := F) x0 (dropPos.lift j k) = IntOp.shli .host ((flag x0 j k).setWidth 32) (BitVec.ofNat 32 k.val) := by
  rw [val_main_v7_apply, val_main_v3_apply, val_main_v2_apply, val_main_v0_apply, val_main_v1_apply, val_main_cst_apply,
    val_main_v6_apply, val_main_v5_apply, val_main_v4_apply]
  rfl

/-- The token of group `j`: the word its four flags pack to. -/
theorem group_word (x0 : (⟨S8x4096x1024, .f32⟩ : BufTy).Contents (Elt F)) (j : S8x4096x256.Idx) :
    val_main_v8 (F := F) x0 j = packWord (flag x0 j) := by
  unfold val_main_v8
  refine (Host.reduce_eq_fold_single IntOp.addi _ _ reducesTo_S8x4096x256x4_S8x4096x256_d3 dropPos h_S_ j).trans ?_
  refine (fold_addi_fin4 _).trans ?_
  unfold packWord
  show IntOp.addi (val_main_v7 x0 (dropPos.lift j (0 : Fin 4))) (IntOp.addi (val_main_v7 x0 (dropPos.lift j (1 : Fin 4)))
    (IntOp.addi (val_main_v7 x0 (dropPos.lift j (2 : Fin 4))) (IntOp.addi (val_main_v7 x0 (dropPos.lift j (3 : Fin 4))) 0#32))) = _
  rw [shifted_flag x0 j 0, shifted_flag x0 j 1, shifted_flag x0 j 2, shifted_flag x0 j 3]
  rfl

/-- The flag read back at a grouped index is the sign flag of the element there. -/
theorem unpacked_flag (x0 : (⟨S8x4096x1024, .f32⟩ : BufTy).Contents (Elt F)) (i' : S8x4096x256x4.Idx) :
    val_main_v18 (F := F) x0 i' = flag x0 (groupOf i') (i' 3) := by
  rw [val_main_v18_apply, val_main_v17_apply, val_main_v15_apply, val_main_v13_apply, val_main_v11_apply, val_main_v9_apply,
    val_main_v12_apply, val_main_v10_apply, val_main_v4_apply, val_main_v14_apply, val_main_c_0_apply, val_main_v16_apply,
    val_main_c_1_apply, group_word]
  exact readFlag_packWord (flag x0 (groupOf i')) (i' 3)

/-- A grouped index is its group with its position put back. -/
theorem lift_groupOf (i' : S8x4096x256x4.Idx) : dropPos.lift (groupOf i') (i' 3) = i' := by
  funext a; apply Fin.ext
  match a with
  | ⟨0, _⟩ => rfl
  | ⟨1, _⟩ => rfl
  | ⟨2, _⟩ => rfl
  | ⟨3, _⟩ => rfl

/-- Grouping an array index and ungrouping it gives the index back: channel c is position c mod 4 of group c / 4. -/
theorem ungroup_group (i : S8x4096x1024.Idx) : idx_main_v0 (idx_main_v22 i) = i := by
  have h0 : (i 0).val < 8 := (i 0).isLt
  have h1 : (i 1).val < 4096 := (i 1).isLt
  have h2 : (i 2).val < 1024 := (i 2).isLt
  funext a; apply Fin.ext
  match a with
  | ⟨0, h⟩ => have e : (i ⟨0, h⟩).val = (i 0).val := rfl; dsimp only [idx_main_v0, idx_main_v22]; omega
  | ⟨1, h⟩ => have e : (i ⟨1, h⟩).val = (i 1).val := rfl; dsimp only [idx_main_v0, idx_main_v22]; omega
  | ⟨2, h⟩ => have e : (i ⟨2, h⟩).val = (i 2).val := rfl; dsimp only [idx_main_v0, idx_main_v22]; omega

/-- The second table's entry the select reads at the grouped index of `i` is the entry of `i`'s channel. -/
theorem chan_of_v20 (i : S8x4096x1024.Idx) : idx_main_v20 (idx_main_call0_v0 (idx_main_v22 i)) = chanOf i := by
  have h0 : (i 0).val < 8 := (i 0).isLt
  have h1 : (i 1).val < 4096 := (i 1).isLt
  have h2 : (i 2).val < 1024 := (i 2).isLt
  funext a; apply Fin.ext
  match a with
  | ⟨0, _⟩ => rfl
  | ⟨1, _⟩ => rfl
  | ⟨2, h⟩ => have e : (i ⟨2, h⟩).val = (i 2).val := rfl; dsimp only [idx_main_v20, idx_main_call0_v0, idx_main_v22, chanOf, ix3]; omega

/-- The first table's entry likewise. -/
theorem chan_of_v19 (i : S8x4096x1024.Idx) : idx_main_v19 (idx_main_call0_v1 (idx_main_v22 i)) = chanOf i := by
  have h0 : (i 0).val < 8 := (i 0).isLt
  have h1 : (i 1).val < 4096 := (i 1).isLt
  have h2 : (i 2).val < 1024 := (i 2).isLt
  funext a; apply Fin.ext
  match a with
  | ⟨0, _⟩ => rfl
  | ⟨1, _⟩ => rfl
  | ⟨2, h⟩ => have e : (i ⟨2, h⟩).val = (i 2).val := rfl; dsimp only [idx_main_v19, idx_main_call0_v1, idx_main_v22, chanOf, ix3]; omega

/-- THE REFERENCE'S RESULT is `signSelect` of its arguments. -/
theorem ref_eq (x0 : (⟨S8x4096x1024, .f32⟩ : BufTy).Contents (Elt F)) (x1 x2 : (⟨S1x1x1024, .f32⟩ : BufTy).Contents (Elt F)) :
    val_main_v22 (F := F) x0 x1 x2 = signSelect x0 x1 x2 := by
  funext i
  rw [val_main_v22_apply, val_main_v21_apply, unpacked_flag, val_main_call0_v0_apply, val_main_v20_apply,
    val_main_call0_v1_apply, val_main_v19_apply]
  unfold flag signSelect
  rw [lift_groupOf, ungroup_group i, chan_of_v20 i, chan_of_v19 i]

end Cert.ReferenceIdeal.RefValue

end
-- ==== Proof.lean ====
/-
  The certificate's claims, assembled.

  Both programs compute `signSelect x e0 e1` (Proof/Spec.lean): at (b, t, c) the entry e1[c] where x[b, t, c] > 0 and e0[c]
  elsewhere. The kernel does so directly, one [1, 512, 1024] block per grid point, the 64 blocks tiling the array
  (Proof/KernelValue.lean). The reference packs the sign flags of each group of four channels into a 4-bit token and
  unpacks them again before selecting; packing and unpacking four 0/1 flags is the identity on them (Proof/BitPack.lean),
  so it computes the same function (Proof/RefValue.lean). The comparison with zero and the choice are the same scalar
  operations on both sides, so the two results are equal at every reading of the floats, in particular as extended reals;
  the precondition is not used.

  The three frames: the two kernel programs' are the frame certificates of their pipelines; the reference's is its run with
  the result dropped. The ideal pass rewrote nothing, so the idealization claim is trivial.
-/
import proofs.«109593_j84679575208362_1_alg».proof.Defs
import proofs.«109593_j84679575208362_1_alg».proof.Proof.Gen.Kernel
import proofs.«109593_j84679575208362_1_alg».proof.Proof.Gen.Kernel.Frame
import proofs.«109593_j84679575208362_1_alg».proof.Proof.Gen.KernelIdeal
import proofs.«109593_j84679575208362_1_alg».proof.Proof.Gen.KernelIdeal.Frame
import proofs.«109593_j84679575208362_1_alg».proof.Proof.Gen.ReferenceIdeal
import proofs.«109593_j84679575208362_1_alg».proof.Proof.Gen.Pre_finite_inputs
import proofs.«109593_j84679575208362_1_alg».proof.Proof.KernelValue
import proofs.«109593_j84679575208362_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both idealized programs end with the result array at `signSelect` of the
    arguments: the kernel by its blocks (`KerValue.run`), the reference by the round trip of its flags (`RefValue.ref_eq`). -/
theorem algebraic : Cert.algebraic_KernelIdeal_ReferenceIdeal := by
  intro m ρ m' ρ' _ hagree
  refine ⟨_, Cert.KernelIdeal.KerValue.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2]
  exact (Cert.ReferenceIdeal.ReadP.val_main_v22_eq _ _ _).trans (Cert.ReferenceIdeal.RefValue.ref_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
